-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S4000x128 : Shape := ⟨2, ![4000, 128]⟩
abbrev S1x128 : Shape := ⟨2, ![1, 128]⟩
abbrev S4000 : Shape := ⟨1, ![4000]⟩
abbrev S4000x1 : Shape := ⟨2, ![4000, 1]⟩

abbrev nBuf : Space → Nat
  | .hbm => 35
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_cst : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRow.lean ====
/-
  One output row of the layer, as a function of that row of the aggregated neighbours, that row of the node
  features, and the three parameter arrays — over the extended reals.

  For a row `r` write `μ = mean[r, ·]`, `ξ = x[r, ·]`. The layer first forms the 128 numbers
      lin j = (Σ_k μ_k · W_l[j, k]) + (Σ_k ξ_k · W_r[j, k]) + b_l[j],
  then divides each by `max(√(Σ_j lin_j²), ε)` and clamps below at zero.
  The two programs differ in how they group the three summands of `lin j`: one adds the bias last, the other adds it to
  the neighbour term before the root term. Addition of extended reals is commutative and associative also at the
  infinities, so the grouping does not matter (`lin_bias_first`); nothing here needs the inputs finite.
-/
import Idealize.ShloMosaic.PureOps.Ideal
import Idealize.ShloMosaic.Lib.ValueIdx

noncomputable section

namespace Sage

open Idealize.ShloMosaic

/-- The linear part of one output row at lane `j`: neighbour term, root term, bias, in this order. -/
def lin (μ ξ : Fin 128 → EReal) (Wl Wr : Fin 128 → Fin 128 → EReal) (bl : Fin 128 → EReal) (j : Fin 128) : EReal :=
  (∑ k : Fin 128, μ k * Wl j k) + (∑ k : Fin 128, ξ k * Wr j k) + bl j

/-- Adding the bias to the neighbour term first gives the same number: `(A + b) + B = (A + B) + b` in a commutative
    monoid. -/
theorem lin_bias_first (μ ξ : Fin 128 → EReal) (Wl Wr : Fin 128 → Fin 128 → EReal) (bl : Fin 128 → EReal) (j : Fin 128) :
    ((∑ k : Fin 128, μ k * Wl j k) + bl j) + (∑ k : Fin 128, ξ k * Wr j k) = lin μ ξ Wl Wr bl j :=
  add_right_comm _ _ _

/-- A row divided by the larger of its Euclidean length and the floor `ε` (the float word `0x2B8CBCCC`, the same in
    both programs and never evaluated), then clamped below at the zero word. The length is `√(Σ_j v_j²)`. -/
def normRelu (v : Fin 128 → EReal) (j : Fin 128) : EReal :=
  max (Ideal.div (v j) (max (Ideal.sqrt (∑ j' : Fin 128, v j' * v j')) (Ideal.ofBits .f32 0x2B8CBCCC#32)))
    (Ideal.ofBits .f32 0x00000000#32)

/-- The same chain spelt with the host program's operation names (its quotient, its square root, its maximum and
    its float words) is `normRelu`: at the exact-real instance each of those names IS the operation `normRelu` uses. -/
theorem normRelu_host (v : Fin 128 → EReal) (j : Fin 128) :
    FloatOps.maximumf (F := Ideal) (φ := .f32)
        (FloatOps.hostDivf (v j)
          (FloatOps.maximumf (FloatOps.hostUnary .sqrt (∑ k : Fin 128, v k * v k)) (FloatOps.ofBits .f32 0x2B8CBCCC#32)))
        (FloatOps.ofBits .f32 0x00000000#32)
      = normRelu v j :=
  rfl

/-- One output row. -/
def rowOut (μ ξ : Fin 128 → EReal) (Wl Wr : Fin 128 → Fin 128 → EReal) (bl : Fin 128 → EReal) (j : Fin 128) : EReal :=
  normRelu (lin μ ξ Wl Wr bl) j

open Idealize.ShloMosaic.ValueIdx in
/-- The layer on whole arrays: entry `(r, j)` of the result is lane `j` of the output row made from row `r` of the
    aggregated neighbours `mean`, row `r` of the features `x`, and the parameters. -/
def layer (mean x : (⟨2, ![100000, 128]⟩ : Shape).Idx → EReal) (Wl Wr : (⟨2, ![128, 128]⟩ : Shape).Idx → EReal)
    (bl : (⟨1, ![128]⟩ : Shape).Idx → EReal) : (⟨2, ![100000, 128]⟩ : Shape).Idx → EReal :=
  fun i => rowOut (fun k => mean (ix2 (i 0) k)) (fun k => x (ix2 (i 0) k)) (fun j k => Wl (ix2 j k)) (fun j k => Wr (ix2 j k))
    (fun j => bl (ix1 j)) (i 1)

open Idealize.ShloMosaic.ValueIdx in
theorem layer_apply (mean x : (⟨2, ![100000, 128]⟩ : Shape).Idx → EReal) (Wl Wr : (⟨2, ![128, 128]⟩ : Shape).Idx → EReal)
    (bl : (⟨1, ![128]⟩ : Shape).Idx → EReal) (r : Fin 100000) (j : Fin 128) :
    layer mean x Wl Wr bl (ix2 r j)
      = rowOut (fun k => mean (ix2 r k)) (fun k => x (ix2 r k)) (fun j k => Wl (ix2 j k)) (fun j k => Wr (ix2 j k)) (fun j => bl (ix1 j)) j :=
  rfl

/-- The layer of equal arrays is equal. -/
theorem layer_congr {mean mean' x x' : (⟨2, ![100000, 128]⟩ : Shape).Idx → EReal} {Wl Wl' Wr Wr' : (⟨2, ![128, 128]⟩ : Shape).Idx → EReal}
    {bl bl' : (⟨1, ![128]⟩ : Shape).Idx → EReal} (h0 : mean = mean') (h1 : x = x') (h2 : Wl = Wl') (h3 : Wr = Wr') (h4 : bl = bl') :
    layer mean x Wl Wr bl = layer mean' x' Wl' Wr' bl' := by
  subst h0 h1 h2 h3 h4; rfl

end Sage

end
-- ==== Proof.LibKeepdimsColumn.lean ====
/-
  The column forms of a keepdims reduction, read at an index given by coordinates.

  A row-wise reduction with `keepdims=True` leaves an `[a]` vector that the body first re-lays as a column `[a, 1]`
  and later spreads over the row's `b` lanes. Both steps move no data: the column holds entry `i` of the vector at
  `(i, 0)`, and the spread array holds at `(p, c)` the column's entry of row `p`, whatever the lane `c`.
  These are the two lemmas Lib/ValueLayout.lean has for the ROW forms (`[a] → [1, a]`, `[1, b] → [a, b]`) stated for the
  column forms, over indices written `ix1` / `ix2`.
-/
import Idealize.ShloMosaic.Lib.ValueIdx
import Idealize.ShloMosaic.Lib.Pipeline.Value

namespace Idealize.ShloMosaic.ValueIdx

open Idealize.ShloMosaic

variable {α : Type}

/-- An `[a]` array cast to `[a, 1]` reads, at `(i, u)`, the operand at `i`, whatever the unit coordinate `u`:
    the row-major position of `(i, u)` in `[a, 1]` is `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is
    read at `0`, the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelRow.lean ====
/-
  What the kernel body computes for one row of a block, at the exact-real instance.

  The body loads a 4000-row block `μ` of the aggregated neighbours, the same rows `ξ` of the node features, and the
  whole of `W_l`, `W_r`, `b_l`. Its one store is `normBlock (linBlock μ ξ W_l W_r b_l)`:
    • `linBlock` at `(p, q)` is `(Σ_k μ[p,k]·W_l[q,k]) + (Σ_k ξ[p,k]·W_r[q,k]) + b_l[q]` — each matrix product contracts
      axis 1 of BOTH operands into a zero accumulator, so it is that plain sum; the narrowing casts are the identity on
      exact reals; the bias is re-laid as a `[1, 128]` row and spread over the 4000 rows;
    • `normBlock v` at `(p, q)` divides `v[p,q]` by `max(√(Σ_j v[p,j]²), ε)` and clamps at zero — the lane sum is re-laid
      as a `[4000, 1]` column and spread over the 128 lanes.
  So row `p` of the stored block is `Sage.rowOut` of row `p` of `μ`, row `p` of `ξ` and the parameters.
-/
import proofs.«147502_j23390391894413_1_alg».proof.Proof.Gen.KernelIdeal.Skeleton
import proofs.«147502_j23390391894413_1_alg».proof.Proof.SageRow
import proofs.«147502_j23390391894413_1_alg».proof.Proof.LibKeepdimsColumn
import Idealize.ShloMosaic.Lib.ValueLayout
import Idealize.ShloMosaic.PureOps.Ideal.Laws

noncomputable section

namespace Cert.KernelIdeal.SageBody

open Cert.KernelIdeal Cert.KernelIdeal.Gen Idealize.ShloMosaic Idealize.ShloMosaic.ValueIdx

/-! ## The matrix product of the body: both operands contracted along their axis 1 -/

theorem lhs_axis0 (i : S4000x128.Idx) (q : dot_S4000x128_S128x128_S4000x128_1_1_0_0_n_n.contr.Idx) :
    (dot_S4000x128_S128x128_S4000x128_1_1_0_0_n_n.lhsIdx i q 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
theorem lhs_axis1 (i : S4000x128.Idx) (q : dot_S4000x128_S128x128_S4000x128_1_1_0_0_n_n.contr.Idx) :
    (dot_S4000x128_S128x128_S4000x128_1_1_0_0_n_n.lhsIdx i q 1).val = (q ⟨0, by decide⟩).val :=
  dot_S4000x128_S128x128_S4000x128_1_1_0_0_n_n.lhsIdx_val_of_single rfl i q
theorem rhs_axis0 (i : S4000x128.Idx) (q : dot_S4000x128_S128x128_S4000x128_1_1_0_0_n_n.contr.Idx) :
    (dot_S4000x128_S128x128_S4000x128_1_1_0_0_n_n.rhsIdx i q 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
theorem rhs_axis1 (i : S4000x128.Idx) (q : dot_S4000x128_S128x128_S4000x128_1_1_0_0_n_n.contr.Idx) :
    (dot_S4000x128_S128x128_S4000x128_1_1_0_0_n_n.rhsIdx i q 1).val = (q ⟨0, by decide⟩).val :=
  dot_S4000x128_S128x128_S4000x128_1_1_0_0_n_n.rhsIdx_val_of_single rfl i q

/-- Entry `(p, q)` of the body's matrix product into a zero accumulator: row `p` of the left operand against ROW `q` of the
    right one (the right operand enters untransposed and is contracted along its second axis). -/
theorem matmul_rows {φ₁ φ₂ : FTy} (A : FVec Ideal S4000x128 φ₁) (B : FVec Ideal S128x128 φ₂) (p : Fin 4000) (q : Fin 128) :
    matmul dot_S4000x128_S128x128_S4000x128_1_1_0_0_n_n none A B (constant S4000x128 .f32 0x00000000#32) (ix2 p q)
      = ∑ k : Fin 128, A (ix2 p k) * B (ix2 q k) := by
  refine (Ideal.matmul_constant_zero_apply dot_S4000x128_S128x128_S4000x128_1_1_0_0_n_n none A B (ix2 p q)).trans ?_
  rw [← Equiv.sum_comp (ValueIdx.contrEquiv1 dot_S4000x128_S128x128_S4000x128_1_1_0_0_n_n 128 rfl rfl).symm]
  refine Finset.sum_congr rfl fun k _ => ?_
  have hk := ValueIdx.contrEquiv1_symm_val dot_S4000x128_S128x128_S4000x128_1_1_0_0_n_n 128 rfl rfl k
  have el : dot_S4000x128_S128x128_S4000x128_1_1_0_0_n_n.lhsIdx (ix2 p q) ((ValueIdx.contrEquiv1 dot_S4000x128_S128x128_S4000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_1_0_0_n_n.rhsIdx (ix2 p q) ((ValueIdx.contrEquiv1 dot_S4000x128_S128x128_S4000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## The linear part of the block -/

/-- The block before normalisation: the two products, then the bias row spread over the block's rows. -/
def linBlock (μ ξ : Vec Ideal S4000x128 .f32) (Wl Wr : Vec Ideal S128x128 .f32) (bl : Vec Ideal S128 .f32) : FVec Ideal S4000x128 .f32 :=
  addf (addf (matmul dot_S4000x128_S128x128_S4000x128_1_1_0_0_n_n none (truncf .bf16 (shapeCast S4000x128 μ shapeCasts_S4000x128_S4000x128) bitsLt_bf16_f32) (truncf .bf16 Wl bitsLt_bf16_f32) (constant S4000x128 .f32 0x00000000#32))
      (matmul dot_S4000x128_S128x128_S4000x128_1_1_0_0_n_n none (truncf .bf16 ξ bitsLt_bf16_f32) (truncf .bf16 Wr bitsLt_bf16_f32) (constant S4000x128 .f32 0x00000000#32)))
    (broadcastTo S4000x128 (shapeCast S1x128 bl shapeCasts_S128_S1x128) broadcasts_S1x128_S4000x128)

theorem linBlock_apply (μ ξ : Vec Ideal S4000x128 .f32) (Wl Wr : Vec Ideal S128x128 .f32) (bl : Vec Ideal S128 .f32) (p : Fin 4000) (q : Fin 128) :
    linBlock μ ξ Wl Wr bl (ix2 p q)
      = Sage.lin (fun k => μ (ix2 p k)) (fun k => ξ (ix2 p k)) (fun j k => Wl (ix2 j k)) (fun j k => Wr (ix2 j k)) (fun j => bl (ix1 j)) q := by
  unfold linBlock Sage.lin
  rw [addf_apply, addf_apply, matmul_rows, matmul_rows, broadcastTo_1b_ab_apply, shapeCast_a_1a_apply, shapeCast_self]
  rfl

/-! ## The normalisation of the block -/

/-- A block divided row by row by the larger of the row's length and `ε`, then clamped at zero. -/
def normBlock (v : FVec Ideal S4000x128 .f32) : FVec Ideal S4000x128 .f32 :=
  maximumf (divf v (broadcastTo S4000x128 (maximumf (sqrt (shapeCast S4000x1 (multiReduction .add [1] S4000 (mulf v v) 0x00000000#32 reduces_S4000x128_S4000 (.inl rfl) rfl) shapeCasts_S4000_S4000x1)) (broadcast S4000x1 (Scalar.ofBits .f32 0x2B8CBCCC#32))) broadcasts_S4000x1_S4000x128))
    (broadcast S4000x128 (Scalar.ofBits .f32 0x00000000#32))

/-- The lane sum of a block at row `p`: the sum over the 128 lanes of that row. -/
theorem rowSum (w : FVec Ideal S4000x128 .f32) (hφ : FKind.Formats FTy.f32) (hacc : (0x00000000#32 : BitVec 32) = 0x00000000#32) (p : Fin 4000) :
    multiReduction .add [1] S4000 w 0x00000000#32 reduces_S4000x128_S4000 hφ hacc (ix1 p) = ∑ j : Fin 128, w (ix2 p j) := by
  refine (Ideal.multiReduction_add_single w 0x00000000#32 reduces_S4000x128_S4000 hφ hacc (ix1 p)).trans ?_
  refine Finset.sum_congr rfl fun j _ => ?_
  exact congrArg w (funext fun a => Fin.ext (by match a with | ⟨0, _⟩ => rfl | ⟨1, _⟩ => rfl))

theorem normBlock_apply (v : FVec Ideal S4000x128 .f32) (p : Fin 4000) (q : Fin 128) :
    normBlock v (ix2 p q) = Sage.normRelu (fun j => v (ix2 p j)) q := by
  unfold normBlock Sage.normRelu
  rw [maximumf_apply, divf_apply, broadcastTo_a1_ab_apply, maximumf_apply]
  show max (Ideal.div (v (ix2 p q)) (max (Ideal.sqrt (shapeCast S4000x1 _ shapeCasts_S4000_S4000x1 (ix2 p (0 : Fin 1)))) (Ideal.ofBits .f32 0x2B8CBCCC#32))) (Ideal.ofBits .f32 0x00000000#32) = _
  rw [shapeCast_a_a1_apply]
  refine congrArg (fun s => max (Ideal.div (v (ix2 p q)) (max (Ideal.sqrt s) (Ideal.ofBits .f32 0x2B8CBCCC#32))) (Ideal.ofBits .f32 0x00000000#32)) ?_
  exact rowSum (mulf v v) _ _ p

/-! ## The body's store -/

/-- The body's one store is the normalised linear block (the printed payload, its local names substituted). -/
theorem pay_eq (μ ξ : Vec Ideal S4000x128 .f32) (Wl Wr : Vec Ideal S128x128 .f32) (bl : Vec Ideal S128 .f32) :
    k0_pay1 (F := Ideal) μ ξ Wl Wr bl = normBlock (linBlock μ ξ Wl Wr bl) := rfl

/-- Row `p` of the stored block is the layer's output row of row `p` of the two loaded blocks. -/
theorem pay_apply (μ ξ : Vec Ideal S4000x128 .f32) (Wl Wr : Vec Ideal S128x128 .f32) (bl : Vec Ideal S128 .f32) (p : Fin 4000) (q : Fin 128) :
    k0_pay1 (F := Ideal) μ ξ Wl Wr bl (ix2 p q)
      = Sage.rowOut (fun k => μ (ix2 p k)) (fun k => ξ (ix2 p k)) (fun j k => Wl (ix2 j k)) (fun j k => Wr (ix2 j k)) (fun j => bl (ix1 j)) q := by
  rw [pay_eq, normBlock_apply]
  unfold Sage.rowOut
  exact congrArg (fun v => Sage.normRelu v q) (funext fun j => linBlock_apply μ ξ Wl Wr bl p j)

end Cert.KernelIdeal.SageBody

end
-- ==== Proof.KernelArray.lean ====
/-
  From the kernel's blocks to its result array.

  The launch runs the body at 25 grid points. At point `t` the two row-blocked inputs (the aggregated neighbours and
  the node features) contribute rows `4000·t … 4000·t + 3999`, the three parameter arrays are staged whole, and the body's
  store is written back to rows `4000·t … 4000·t + 3999` of the result. Every block coordinate is
  `block index × block size + 1 × coordinate inside the block`.
  Because the body works row by row (`SageBody.pay_apply`), what point `t` writes back is exactly block `t` of ONE
  whole-array function, `Sage.layer` of the five arrays as the launch finds them; the 25 blocks tile the
  100000 rows (row `r` lies in block `r / 4000`), so the result array ends holding `Sage.layer` of them.
  Everything up to the last section is stated for ARBITRARY contents `A0 … A4` of the five input arrays: which values the
  launch finds there plays no part in the tiling argument.
-/
import proofs.«147502_j23390391894413_1_alg».proof.Proof.Gen.KernelIdeal.Value
import proofs.«147502_j23390391894413_1_alg».proof.Proof.KernelRow

set_option maxRecDepth 16384

noncomputable section

namespace Cert.KernelIdeal.SageArray

open Cert.KernelIdeal Cert.KernelIdeal.Gen Idealize.ShloMosaic Idealize.ShloMosaic.TcCoe Idealize.SL.Sem Idealize.ShloMosaic.ValueIdx
open Idealize.ShloMosaic.Pipeline (Dat)

theorem zero_off2 : (![0, 0] : Fin 2 → Nat) = fun _ => 0 := funext fun a => by fin_cases a <;> rfl
theorem zero_off1 : (![0] : Fin 1 → Nat) = fun _ => 0 := funext fun a => by fin_cases a; rfl

/-- The printed index maps, decided over the 25 grid points: the row-blocked windows (0, 1 and the output 5) sit at block
    `(t, 0)`, the parameter windows (2, 3, 4) at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One entry of the stored block, from rows of whole arrays -/

/-- If row `y 0` of the two loaded blocks is row `i 0` of two arrays `A`, `X`, the loaded parameters are the arrays
    `WL`, `WR`, `BL`, and `y`, `i` name the same lane, then entry `y` of the body's store is entry `i` of the layer of
    those arrays. -/
theorem pay_row_of_arrays (μ ξ : Vec Ideal S4000x128 .f32) (Wl Wr : Vec Ideal S128x128 .f32) (bl : Vec Ideal S128 .f32)
    (A X : S100000x128.Idx → EReal) (WL WR : S128x128.Idx → EReal) (BL : S128.Idx → EReal)
    (y : S4000x128.Idx) (i : S100000x128.Idx)
    (hq : (i 1).val = (y 1).val)
    (hμ : ∀ k : Fin 128, μ (ix2 (y 0) k) = A (ix2 (i 0) k))
    (hξ : ∀ k : Fin 128, ξ (ix2 (y 0) k) = X (ix2 (i 0) k))
    (hWl : Wl = WL) (hWr : Wr = WR) (hbl : bl = BL) :
    k0_pay1 (F := Ideal) μ ξ Wl Wr bl y = Sage.layer A X WL WR BL i := by
  subst hWl hWr hbl
  obtain ⟨p, q, rfl⟩ : ∃ (p : Fin 4000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  rw [SageBody.pay_apply, Sage.layer_apply]
  have e1 : (fun k => μ (ix2 p k)) = fun k => A (ix2 r k) := funext hμ
  have e2 : (fun k => ξ (ix2 p k)) = fun k => X (ix2 r k) := funext hξ
  rw [e1, e2]

/-! ## The input windows' blocks, read off arbitrary array contents -/

variable (c : Dev nD)

/-- Window 0's block at point `t`, at local index `y`, is the array at row `4000·t + y 0`, lane `y 1`. -/
theorem blk0_read (X : Buf (Elt Ideal) ((c : Thread nD τ).loc (Pipeline.arrRef spec0 0))) (t : Fin cfg0.N)
    (y : S4000x128.Idx) (i : S100000x128.Idx)
    (h0 : (i 0).val = 4000 * t.val + (y 0).val) (h1 : (i 1).val = (y 1).val) :
    (((cfg0.win 0).blk t).view.read (Elt Ideal) X : Vec Ideal S4000x128 .f32) y = (X : S100000x128.Idx → EReal) i := by
  obtain ⟨e0, e1, -⟩ := idx_facts t
  rw [View.read_apply]
  refine congrArg (X : S100000x128.Idx → EReal) ?_
  funext a
  apply Fin.ext
  match a with
  | ⟨0, _⟩ => show win0_0.index t 0 * 4000 + 1 * (y 0).val = (i 0).val; rw [e0, h0]; omega
  | ⟨1, _⟩ => show win0_0.index t 1 * 128 + 1 * (y 1).val = (i 1).val; rw [e1, h1]; omega

/-- The same for window 1. -/
theorem blk1_read (X : Buf (Elt Ideal) ((c : Thread nD τ).loc (Pipeline.arrRef spec0 1))) (t : Fin cfg0.N)
    (y : S4000x128.Idx) (i : S100000x128.Idx)
    (h0 : (i 0).val = 4000 * t.val + (y 0).val) (h1 : (i 1).val = (y 1).val) :
    (((cfg0.win 1).blk t).view.read (Elt Ideal) X : Vec Ideal S4000x128 .f32) y = (X : S100000x128.Idx → EReal) i := by
  obtain ⟨-, -, e0, e1, -⟩ := idx_facts t
  rw [View.read_apply]
  refine congrArg (X : S100000x128.Idx → EReal) ?_
  funext a
  apply Fin.ext
  match a with
  | ⟨0, _⟩ => show win0_1.index t 0 * 4000 + 1 * (y 0).val = (i 0).val; rw [e0, h0]; omega
  | ⟨1, _⟩ => show win0_1.index t 1 * 128 + 1 * (y 1).val = (i 1).val; rw [e1, h1]; omega

/-- Window 2's one block is its whole array. -/
theorem blk2_read (X : Buf (Elt Ideal) ((c : Thread nD τ).loc (Pipeline.arrRef spec0 2))) (t : Fin cfg0.N) :
    (((cfg0.win 2).blk t).view.read (Elt Ideal) X : Vec Ideal S128x128 .f32) = (X : S128x128.Idx → EReal) := by
  obtain ⟨-, -, -, -, e0, e1, -⟩ := idx_facts t
  funext y
  rw [View.read_apply]
  refine congrArg (X : S128x128.Idx → EReal) ?_
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Window 3's one block is its whole array. -/
theorem blk3_read (X : Buf (Elt Ideal) ((c : Thread nD τ).loc (Pipeline.arrRef spec0 3))) (t : Fin cfg0.N) :
    (((cfg0.win 3).blk t).view.read (Elt Ideal) X : Vec Ideal S128 .f32) = (X : S128.Idx → EReal) := by
  obtain ⟨-, -, -, -, -, -, e0, -⟩ := idx_facts t
  funext y
  rw [View.read_apply]
  refine congrArg (X : S128.Idx → EReal) ?_
  funext a
  apply Fin.ext
  match a with
  | ⟨0, _⟩ => show win0_3.index t 0 * 128 + 1 * (y 0).val = (y 0).val; rw [e0]; omega

/-- Window 4's one block is its whole array. -/
theorem blk4_read (X : Buf (Elt Ideal) ((c : Thread nD τ).loc (Pipeline.arrRef spec0 4))) (t : Fin cfg0.N) :
    (((cfg0.win 4).blk t).view.read (Elt Ideal) X : Vec Ideal S128x128 .f32) = (X : S128x128.Idx → EReal) := by
  obtain ⟨-, -, -, -, -, -, -, e0, e1, -⟩ := idx_facts t
  funext y
  rw [View.read_apply]
  refine congrArg (X : S128x128.Idx → EReal) ?_
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-! ## What point `t` writes back, for arbitrary contents of the input arrays -/

/-- Entry `y` of the body's store at point `t` is the layer of the five arrays at the array index the output window's block
    gives `y` (row `4000·t + y 0`, lane `y 1`). -/
theorem block_entry (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4))) (t : Fin cfg0.N) (y : S4000x128.Idx) :
    k0_pay1 (F := Ideal) (((cfg0.win 0).blk t).view.read (Elt Ideal) A0 : Vec Ideal S4000x128 .f32)
        (((cfg0.win 1).blk t).view.read (Elt Ideal) A1 : Vec Ideal S4000x128 .f32)
        (((cfg0.win 2).blk t).view.read (Elt Ideal) A2 : Vec Ideal S128x128 .f32)
        (((cfg0.win 4).blk t).view.read (Elt Ideal) A4 : Vec Ideal S128x128 .f32)
        (((cfg0.win 3).blk t).view.read (Elt Ideal) A3 : Vec Ideal S128 .f32) y
      = Sage.layer (A0 : S100000x128.Idx → EReal) (A1 : S100000x128.Idx → EReal) (A2 : S128x128.Idx → EReal)
          (A4 : S128x128.Idx → EReal) (A3 : S128.Idx → EReal) (((cfg0.win 5).blk t).view.emb y) := by
  obtain ⟨-, -, -, -, -, -, -, -, -, e0, e1⟩ := idx_facts t
  have r0 : ((((cfg0.win 5).blk t).view.emb y : S100000x128.Idx) 0).val = 4000 * t.val + (y 0).val := by
    show win0_5.index t 0 * 4000 + 1 * (y 0).val = 4000 * t.val + (y 0).val
    rw [e0]; omega
  have r1 : ((((cfg0.win 5).blk t).view.emb y : S100000x128.Idx) 1).val = (y 1).val := by
    show win0_5.index t 1 * 128 + 1 * (y 1).val = (y 1).val
    rw [e1]; omega
  refine pay_row_of_arrays _ _ _ _ _ (A0 : S100000x128.Idx → EReal) (A1 : S100000x128.Idx → EReal) (A2 : S128x128.Idx → EReal)
    (A4 : S128x128.Idx → EReal) (A3 : S128.Idx → EReal) y (((cfg0.win 5).blk t).view.emb y) r1 (fun k => ?_) (fun k => ?_)
    (blk2_read c A2 t) (blk4_read c A4 t) (blk3_read c A3 t)
  · exact blk0_read c A0 t (ix2 (y 0) k) (ix2 ((((cfg0.win 5).blk t).view.emb y : S100000x128.Idx) 0) k) r0 rfl
  · exact blk1_read c A1 t (ix2 (y 0) k) (ix2 ((((cfg0.win 5).blk t).view.emb y : S100000x128.Idx) 0) k) r0 rfl

/-- What the output window's staging buffer holds after the body at point `t`, cut to the block, is block `t` of the layer
    of the five arrays. -/
theorem block_is_layer (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4))) (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal)
          (Sage.layer (A0 : S100000x128.Idx → EReal) (A1 : S100000x128.Idx → EReal) (A2 : S128x128.Idx → EReal)
            (A4 : S128x128.Idx → EReal) (A3 : S128.Idx → EReal)) := by
  unfold out0_5
  rw [View.canon_unit_zero zero_off2]
  simp only [View.ld_unit_zero (S := S4000x128) zero_off2, View.ld_unit_zero (S := S128x128) zero_off2, View.ld_unit_zero (S := S128) zero_off1]
  exact funext fun (y : S4000x128.Idx) => block_entry c A0 A1 A2 A3 A4 t y

/-! ## The blocks tile the array -/

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v23).slice (win0_5.rect t)).set ↔ _
  rw [View.set_slice_whole, Rect.mem_set_unit]
  exact Iff.rfl

/-- Row `r` of the result lies in the block of point `r / 4000`, and every point writes back. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, e0, e1⟩ := idx_facts ⟨(i 0).val / 4000, ht⟩
  refine ⟨⟨(i 0).val / 4000, ht⟩, flush0_5 _, ?_⟩
  rw [mem_blk]
  intro a
  match a with
  | ⟨0, _⟩ =>
    show win0_5.index ⟨(i 0).val / 4000, ht⟩ 0 * 4000 ≤ (i 0).val ∧ (i 0).val < win0_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ 1 * 128 ≤ (i 1).val ∧ (i 1).val < win0_5.index ⟨(i 0).val / 4000, ht⟩ 1 * 128 + 128
    rw [e1]; omega

/-! ## The result array and the run -/

variable (m : (ℓ : Loc nD τ sig) → Buf (Elt Ideal) ℓ) (ρ : Dev nD → PrngReg)

/-- The layer of the five arrays as the launch finds them (each array named through the window that stages it). -/
abbrev result : S100000x128.Idx → EReal :=
  Sage.layer (V m c (Pipeline.arrRef spec0 0) : S100000x128.Idx → EReal) (V m c (Pipeline.arrRef spec0 1) : S100000x128.Idx → EReal)
    (V m c (Pipeline.arrRef spec0 2) : S128x128.Idx → EReal) (V m c (Pipeline.arrRef spec0 4) : S128x128.Idx → EReal)
    (V m c (Pipeline.arrRef spec0 3) : S128.Idx → EReal)

/-- What point `t` writes back is block `t` of `result`. -/
theorem flushed_eq (t : Fin cfg0.N) :
    (dats m 0 c).flushed 5 t = ((cfg0.win 5).blk t).view.read (Elt Ideal) (result c m) :=
  (Value.flushed5 m c t).trans
    (block_is_layer c (V m c (Pipeline.arrRef spec0 0)) (V m c (Pipeline.arrRef spec0 1)) (V m c (Pipeline.arrRef spec0 2))
      (V m c (Pipeline.arrRef spec0 3)) (V m c (Pipeline.arrRef spec0 4)) t)

/-- So the result array ends holding `result`: the 25 written-back blocks cover it. -/
theorem final : (dats m 0 c).arrAt 5 cfg0.N = result c m :=
  (dats m 0 c).arrAt_eq_of_cover 5 (result c m) (fun t _ => flushed_eq c m t) cover

end Cert.KernelIdeal.SageArray

end
-- ==== Proof.KernelRun.lean ====
/-
  The idealized kernel's run, with its result named as a function of the launch memory.

  Before the launch the program aggregates neighbours on the host: it gathers the source rows of `x`, scatter-adds them
  and a vector of ones into the destination rows, and divides the sums by `max(count, 1)`. The reference program does the
  same operations in the same order, so the array the launch finds in the aggregated-neighbours buffer is the
  reference's own aggregation stage of the same two arguments (`mean_is_stage`: the two terms are one tree; only the names
  of the shape and dimension records differ between the two programs). The other four arrays the launch stages are
  arguments no host operation writes. With the tiling result (`SageArray.final`) this names the result array.
-/
import proofs.«147502_j23390391894413_1_alg».proof.Proof.KernelArray
import proofs.«147502_j23390391894413_1_alg».proof.Proof.Gen.ReferenceIdeal.Read

set_option maxRecDepth 16384

noncomputable section

namespace Cert.KernelIdeal.SageRun

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated-neighbours array the launch finds is the reference's aggregation stage of the features and the edge
    list as launched. -/
theorem mean_is_stage (c : Dev nD) :
    V m c main_v22 = Cert.ReferenceIdeal.Read.val_main_v22 (F := Ideal) (m ((c : Thread nD τ).loc main_arg0)) (m ((c : Thread nD τ).loc main_arg1)) := by
  dsimp only [V, hostOps0]
  after_results_simp
  unfold Cert.ReferenceIdeal.Read.val_main_v22 Cert.ReferenceIdeal.Read.val_main_v13 Cert.ReferenceIdeal.Read.val_main_v21 Cert.ReferenceIdeal.Read.val_main_v20 Cert.ReferenceIdeal.Read.val_main_v19 Cert.ReferenceIdeal.Read.val_main_v17 Cert.ReferenceIdeal.Read.val_main_v18 Cert.ReferenceIdeal.Read.val_main_v16 Cert.ReferenceIdeal.Read.val_main_v15 Cert.ReferenceIdeal.Read.val_main_v14 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rfl

/-- The kernel's result as a function of the launch memory: the layer of the aggregation stage, the features and the
    parameters. -/
abbrev out (c : Dev nD) : (⟨2, ![100000, 128]⟩ : Shape).Idx → EReal :=
  Sage.layer (Cert.ReferenceIdeal.Read.val_main_v22 (F := Ideal) (m ((c : Thread nD τ).loc main_arg0)) (m ((c : Thread nD τ).loc main_arg1)))
    (m ((c : Thread nD τ).loc main_arg0)) (m ((c : Thread nD τ).loc main_arg2)) (m ((c : Thread nD τ).loc main_arg4))
    (m ((c : Thread nD τ).loc main_arg3))

/-- The five arrays the launch finds, named. -/
theorem result_eq (c : Dev nD) : SageArray.result c m = out m c :=
  Sage.layer_congr (mean_is_stage m c) (V_main_arg0 m c) (V_main_arg2 m c) (V_main_arg4 m c) (V_main_arg3 m c)

/-- Every weakly fair execution of the idealized kernel terminates with the result array at `out` and the arguments
    unchanged. -/
theorem run : θ_run defs (onTc (τ := τ) (main (F := Ideal))) ⟨m, fun _ => 0, ρ⟩ fun r => ∀ c : Dev nD,
      r.2.mem ((c : Thread nD τ).loc main_v23) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((SageArray.final c m).trans (result_eq m c)), (h c).2⟩)
    (Cert.KernelIdeal.Value.run_blocks m ρ)

end Cert.KernelIdeal.SageRun

end
-- ==== Proof.RefLayer.lean ====
/-
  The reference program's result, read at an index: it is the layer of `Sage.layer` applied to the reference's own
  aggregated-neighbour stage (left closed: gather, two scatter-adds and a quotient, which both programs share), the node
  features and the parameters.

  After the aggregation the reference transposes each weight matrix and contracts the transposed matrix along its FIRST
  axis, so entry `(r, j)` of a product is `Σ_k row_r[k] · W[j, k]`; it adds the bias to the neighbour product BEFORE
  the root product (`Sage.lin_bias_first` regroups); its row sum of squares starts from the zero word, which is `0`;
  the floor `ε` and the clamp's zero are the same words as in the specification.
-/
import proofs.«147502_j23390391894413_1_alg».proof.Proof.Gen.ReferenceIdeal.Read
import proofs.«147502_j23390391894413_1_alg».proof.Proof.SageRow

noncomputable section

namespace Cert.ReferenceIdeal.SageRef

open Cert.ReferenceIdeal Cert.ReferenceIdeal.Gen Cert.ReferenceIdeal.Read Idealize.ShloMosaic Idealize.ShloMosaic.ValueIdx

/-! ## Where each stage reads its operands, in coordinates -/

theorem neigh_lhs (r : Fin 100000) (j k : Fin 128) : lidx_main_v24 (ix2 r j) k = ix2 r k :=
  funext fun a => Fin.ext (by match a with | ⟨0, _⟩ => rfl | ⟨1, _⟩ => rfl)
theorem neigh_rhs (r : Fin 100000) (j k : Fin 128) : idx_main_v23 (ridx_main_v24 (ix2 r j) k) = ix2 j k :=
  funext fun a => Fin.ext (by match a with | ⟨0, _⟩ => rfl | ⟨1, _⟩ => rfl)
theorem root_lhs (r : Fin 100000) (j k : Fin 128) : lidx_main_v29 (ix2 r j) k = ix2 r k :=
  funext fun a => Fin.ext (by match a with | ⟨0, _⟩ => rfl | ⟨1, _⟩ => rfl)
theorem root_rhs (r : Fin 100000) (j k : Fin 128) : idx_main_v28 (ridx_main_v29 (ix2 r j) k) = ix2 j k :=
  funext fun a => Fin.ext (by match a with | ⟨0, _⟩ => rfl | ⟨1, _⟩ => rfl)
theorem bias_idx (r : Fin 100000) (j : Fin 128) : idx_main_v25 (idx_main_v26 (ix2 r j)) = ix1 j :=
  funext fun a => Fin.ext (by match a with | ⟨0, _⟩ => rfl)
theorem rowsum_idx (r : Fin 100000) (j k : Fin 128) : idx_main_v32 (idx_main_v33 (idx_main_v37 (ix2 r j))) k = ix2 r k :=
  funext fun a => Fin.ext (by match a with | ⟨0, _⟩ => rfl | ⟨1, _⟩ => rfl)

/-! ## The linear stage -/

/-- The stage before normalisation, at `(r, j)`, is the specification's linear part of row `r`. -/
theorem lin_ref (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    val_main_v30 (F := Ideal) x0 x1 x2 x3 x4 (ix2 r j)
      = Sage.lin (fun k => val_main_v22 (F := Ideal) x0 x1 (ix2 r k)) (fun k => x0 (ix2 r k)) (fun j k => x2 (ix2 j k))
          (fun j k => x4 (ix2 j k)) (fun j => x3 (ix1 j)) j := by
  rw [val_main_v30_apply, val_main_v27_apply, val_main_v24_apply, val_main_v29_apply, val_main_v26_apply, val_main_v25_apply]
  simp only [val_main_v23_apply, val_main_v28_apply, neigh_lhs, neigh_rhs, root_lhs, root_rhs, bias_idx, Ideal.addf_def]
  exact Sage.lin_bias_first (fun k => val_main_v22 (F := Ideal) x0 x1 (ix2 r k)) (fun k => x0 (ix2 r k)) (fun j k => x2 (ix2 j k))
    (fun j k => x4 (ix2 j k)) (fun j => x3 (ix1 j)) j

/-! ## The row's sum of squares -/

/-- The reference's row sum of squares for row `r` (read through the column it is re-laid as, from any lane `j`): the zero
    word it starts from is `0`, and each summand is the square of the linear stage at `(r, k)`. -/
theorem sumsq_ref (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    (FloatOps.ofBits (F := Ideal) .f32 0x00000000#32
        + ∑ k : Fin 128, val_main_v31 (F := Ideal) x0 x1 x2 x3 x4 (idx_main_v32 (idx_main_v33 (idx_main_v37 (ix2 r j))) k) : EReal)
      = ∑ k : Fin 128,
          Sage.lin (fun k => val_main_v22 (F := Ideal) x0 x1 (ix2 r k)) (fun k => x0 (ix2 r k)) (fun j k => x2 (ix2 j k))
              (fun j k => x4 (ix2 j k)) (fun j => x3 (ix1 j)) k
            * Sage.lin (fun k => val_main_v22 (F := Ideal) x0 x1 (ix2 r k)) (fun k => x0 (ix2 r k)) (fun j k => x2 (ix2 j k))
              (fun j k => x4 (ix2 j k)) (fun j => x3 (ix1 j)) k := by
  have hz : FloatOps.ofBits (F := Ideal) .f32 0x00000000#32 = (0 : EReal) := Ideal.ofBits_zero_f32
  rw [hz, zero_add]
  refine Finset.sum_congr rfl fun k _ => ?_
  rw [rowsum_idx, val_main_v31_apply, lin_ref]
  rfl

/-! ## The result -/

/-- The reference's result array is the layer of its aggregated-neighbour stage, the features and the parameters. -/
theorem ref_is_layer (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v39 (F := Ideal) x0 x1 x2 x3 x4 = Sage.layer (val_main_v22 (F := Ideal) x0 x1) x0 x2 x4 x3 := by
  funext i
  obtain ⟨r, j, rfl⟩ : ∃ (r : Fin 100000) (j : Fin 128), i = ix2 r j := ⟨i 0, i 1, eq_ix2 i⟩
  rw [Sage.layer_apply, val_main_v39_apply, val_main_call0_v0_apply, val_main_call0_cst_apply, val_main_v38_apply, val_main_v37_apply,
    val_main_v36_apply, val_main_v35_apply, val_main_cst_5_apply, val_main_v34_apply, val_main_v33_apply, val_main_v32_apply,
    val_main_cst_4_apply, sumsq_ref, lin_ref]
  exact Sage.normRelu_host
    (Sage.lin (fun k => val_main_v22 (F := Ideal) x0 x1 (ix2 r k)) (fun k => x0 (ix2 r k)) (fun j k => x2 (ix2 j k))
      (fun j k => x4 (ix2 j k)) (fun j => x3 (ix1 j))) j

end Cert.ReferenceIdeal.SageRef

end
-- ==== Proof.lean ====
/-
  GraphSAGE layer (mean aggregation, two linear maps and a bias, row normalisation, clamp at zero): the Pallas
  kernel's program against the jnp reference, over the extended reals.

  Both programs aggregate neighbours on the host with the same operations: gather the source rows of `x`, scatter-add them
  and a vector of ones into the destination rows, divide by `max(count, 1)`. Call the result `mean`.
  The kernel then computes, in 25 blocks of 4000 rows, `(mean · W_lᵀ + x · W_rᵀ) + b_l` (each product contracting the second
  axis of both operands into a zero accumulator), divides every row by `max(‖row‖₂, ε)` and clamps at zero. The reference
  computes `(mean · W_lᵀ + b_l) + x · W_rᵀ` on whole arrays (transposing each weight first) and then the same normalisation,
  with the same word for `ε` and for zero.
  At the exact-real instance the narrowing casts are the identity, both square roots and both quotients are one function,
  each product is the plain sum `Σ_k row[k] · W[j, k]`, and the only difference left is the grouping of the three summands,
  which commutativity and associativity of extended-real addition remove. No finiteness of the inputs is used.

  Modules: SageRow (one output row, the regrouping law, the layer on whole arrays), KernelRow (the body's store, row by
  row), KernelArray (the 25 blocks tile the result array), KernelRun (the host prefix and the run), RefLayer (the
  reference's run read at an index), LibKeepdimsColumn (two layout lemmas). The frames of the two kernel programs are the
  generated ones; the reference's frame is its generated run with the result dropped; the idealization rewrote nothing.
-/
import proofs.«147502_j23390391894413_1_alg».proof.Defs
import proofs.«147502_j23390391894413_1_alg».proof.Proof.Gen.Kernel
import proofs.«147502_j23390391894413_1_alg».proof.Proof.Gen.Kernel.Skeleton
import proofs.«147502_j23390391894413_1_alg».proof.Proof.Gen.Kernel.Launch
import proofs.«147502_j23390391894413_1_alg».proof.Proof.Gen.Kernel.Points
import proofs.«147502_j23390391894413_1_alg».proof.Proof.Gen.Kernel.Frame
import proofs.«147502_j23390391894413_1_alg».proof.Proof.Gen.KernelIdeal
import proofs.«147502_j23390391894413_1_alg».proof.Proof.Gen.KernelIdeal.Skeleton
import proofs.«147502_j23390391894413_1_alg».proof.Proof.Gen.KernelIdeal.Launch
import proofs.«147502_j23390391894413_1_alg».proof.Proof.Gen.KernelIdeal.Points
import proofs.«147502_j23390391894413_1_alg».proof.Proof.Gen.KernelIdeal.Frame
import proofs.«147502_j23390391894413_1_alg».proof.Proof.Gen.ReferenceIdeal
import proofs.«147502_j23390391894413_1_alg».proof.Proof.Gen.Pre_finite_inputs
import proofs.«147502_j23390391894413_1_alg».proof.Proof.Gen.KernelIdeal.Value
import proofs.«147502_j23390391894413_1_alg».proof.Proof.Gen.ReferenceIdeal.Run
import proofs.«147502_j23390391894413_1_alg».proof.Proof.Gen.ReferenceIdeal.Read
import proofs.«147502_j23390391894413_1_alg».proof.Proof.KernelRun
import proofs.«147502_j23390391894413_1_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's both end at the layer of
    the shared aggregation stage, the features and the parameters. -/
theorem algebraic : Cert.algebraic_KernelIdeal_ReferenceIdeal := by
  intro m ρ m' ρ' _ hagree
  refine ⟨fun c => Cert.KernelIdeal.SageRun.out m c, Cert.KernelIdeal.SageRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.SageRef.ref_is_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
